-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_
  reducesTo_S4000000x4_S4000000_d1 : S4000000x4.ReducesTo [1] S4000000
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x4 .f32 := mulf main_arg0 main_arg0
  let main_cst_2 : FVec F S_ .f32 := constant S_ .f32 0x00000000#32
  let main_v10 : FVec F S4000000 .f32 := (fun x v => Host.reduceAdd x v reducesTo_S4000000x4_S4000000_d1 h_S_) main_v9 main_cst_2
  let main_cst_3 : FVec F S_ .f32 := constant S_ .f32 0x00000000#32
  let main_v11 : FVec F S4000000 .f32 := broadcastInDim S4000000 ![] bcast_S_S4000000 main_cst_3
  let main_v12 : IVec S4000000 1 := cmpf .ogt main_v10 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v8 main_v13
  main_v14
-- ==== Kernel.lean ====
abbrev S4000000x4 : Shape := ⟨2, ![4000000, 4]⟩
abbrev S4000000x3 : Shape := ⟨2, ![4000000, 3]⟩
abbrev S4000000x9 : Shape := ⟨2, ![4000000, 9]⟩
abbrev S2000x4 : Shape := ⟨2, ![2000, 4]⟩
abbrev S2000x3 : Shape := ⟨2, ![2000, 3]⟩
abbrev S2000x9 : Shape := ⟨2, ![2000, 9]⟩
abbrev S2000 : Shape := ⟨1, ![2000]⟩
abbrev S2000x1 : Shape := ⟨2, ![2000, 1]⟩
abbrev S4000000x3x3 : Shape := ⟨3, ![4000000, 3, 3]⟩

abbrev nBuf : Space → Nat
  | .hbm => 4
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x9, .f32⟩
  | .hbm, ⟨3, _⟩ => ⟨S4000000x3x3, .f32⟩
  | .local _ .vmem, ⟨0, _⟩ => ⟨S2000x4, .f32⟩
  | .local _ .vmem, ⟨1, _⟩ => ⟨S2000x4, .f32⟩
  | .local _ .vmem, ⟨2, _⟩ => ⟨S2000x3, .f32⟩
  | .local _ .vmem, ⟨3, _⟩ => ⟨S2000x3, .f32⟩
  | .local _ .vmem, ⟨4, _⟩ => ⟨S2000x9, .f32⟩
  | .local _ .vmem, ⟨5, _⟩ => ⟨S2000x9, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x4_S2000x4_0_0 : ∀ a, (![0, 0] : Fin 2 → Nat) a + S2000x4.size a ≤ S2000x4.size a
  h_S2000x4 : 0 < S2000x4.numel
  inb_S2000x3_S2000x3_0_0 : ∀ a, (![0, 0] : Fin 2 → Nat) a + S2000x3.size a ≤ S2000x3.size a
  h_S2000x3 : 0 < S2000x3.numel
  reduces_S2000x4_S2000 : S2000x4.Reduces [1] S2000
  shapeCasts_S2000_S2000x1 : S2000.ShapeCasts S2000x1
  broadcasts_S2000x1_S2000x4 : S2000x1.Broadcasts S2000x4
  slices_S2000x4_o0_0_S2000x1 : S2000x4.Slices ![0, 0] S2000x1
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  concatenates_S2000x1_S2000x1_S2000x1_S2000x1_S2000x1_S2000x1_S2000x1_S2000x1_S2000x1_S2000x9_d1 : Shape.Concatenates [S2000x1, S2000x1, S2000x1, S2000x1, S2000x1, S2000x1, S2000x1, S2000x1, S2000x1] S2000x9 1
  inb_S2000x9_S2000x9_0_0 : ∀ a, (![0, 0] : Fin 2 → Nat) a + S2000x9.size a ≤ S2000x9.size a
  h_S2000x9 : 0 < S2000x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S4000000x4.size a
  hwx0_0 : ∀ i : grid0.Coords, EltTy.bits .f32 = 32 ∨ (Rect.block (s := S4000000x4) S2000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S4000000x3.size a
  hwx0_1 : ∀ i : grid0.Coords, EltTy.bits .f32 = 32 ∨ (Rect.block (s := S4000000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x9.size a ≤ S4000000x9.size a
  hwx0_2 : ∀ i : grid0.Coords, EltTy.bits .f32 = 32 ∨ (Rect.block (s := S4000000x9) S2000x9.size (cc0_transform_2 i) (hinb0_2 i)).WholeWords (EltTy.packing .f32)

variable [Facts₀]

abbrev win0_0 : Pipeline.Window sig grid0 :=
  Pipeline.Window.ofSpec (Memref.whole main_arg0) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 95
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x4, .f32⟩
  | .hbm, ⟨8, _⟩ => ⟨S4000000x4, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000, .f32⟩
  | .hbm, ⟨18, _⟩ => ⟨S4000000, .f32⟩
  | .hbm, ⟨19, _⟩ => ⟨S4000000, .f32⟩
  | .hbm, ⟨20, _⟩ => ⟨S_, .f32⟩
  | .hbm, ⟨21, _⟩ => ⟨S4000000, .f32⟩
  | .hbm, ⟨22, _⟩ => ⟨S4000000, .f32⟩
  | .hbm, ⟨23, _⟩ => ⟨S_, .f32⟩
  | .hbm, ⟨24, _⟩ => ⟨S4000000, .f32⟩
  | .hbm, ⟨25, _⟩ => ⟨S4000000, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S_, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S_, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S4000000, .f32⟩
  | .hbm, ⟨41, _⟩ => ⟨S_, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S_, .f32⟩
  | .hbm, ⟨48, _⟩ => ⟨S4000000, .f32⟩
  | .hbm, ⟨49, _⟩ => ⟨S4000000, .f32⟩
  | .hbm, ⟨50, _⟩ => ⟨S_, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S_, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S_, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S4000000, .f32⟩
  | .hbm, ⟨67, _⟩ => ⟨S4000000, .f32⟩
  | .hbm, ⟨68, _⟩ => ⟨S_, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S4000000, .f32⟩
  | .hbm, ⟨76, _⟩ => ⟨S4000000, .f32⟩
  | .hbm, ⟨77, _⟩ => ⟨S_, .f32⟩
  | .hbm, ⟨78, _⟩ => ⟨S4000000, .f32⟩
  | .hbm, ⟨79, _⟩ => ⟨S4000000, .f32⟩
  | .hbm, ⟨80, _⟩ => ⟨S4000000x1, .f32⟩
  | .hbm, ⟨81, _⟩ => ⟨S4000000x1, .f32⟩
  | .hbm, ⟨82, _⟩ => ⟨S4000000x1, .f32⟩
  | .hbm, ⟨83, _⟩ => ⟨S4000000x1, .f32⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x9, .f32⟩
  | .hbm, ⟨90, _⟩ => ⟨S4000000x3x3, .f32⟩
  | .hbm, ⟨91, _⟩ => ⟨S4000000x1x3, .f32⟩
  | .hbm, ⟨92, _⟩ => ⟨S4000000x3x3, .f32⟩
  | .hbm, ⟨93, _⟩ => ⟨S4000000x3x3, .f32⟩
  | .hbm, ⟨94, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.QuatCov.lean ====
/-
  What both programs compute, for one row of the inputs. A quaternion q = (q₀, q₁, q₂, q₃) is scaled to unit length,
  n = q · (∑ₖ qₖ²)^(-1/2); with (w, x, y, z) = n the rotation matrix R has the nine entries of `rot`; its columns are
  scaled by the row s = (s₀, s₁, s₂) of the second input, M = R · diag s; the result is M · Mᵀ, whose entry (i, k) is
  ∑ⱼ (R i j · sⱼ) · (R k j · sⱼ). The two literals 1 and 2 are kept as the words both programs print.

  One side scales by the reciprocal square root, the other divides by the square root. On a row of real numbers that is
  not the zero row the two agree (`div_sqrt_eq_nrm`): the sum of squares is a positive real r, and both are q · (√r)⁻¹.
-/
import Idealize.ShloMosaic.PureOps.Ideal
import Idealize.ShloMosaic.PureOps.Ideal.Laws
import Idealize.ShloMosaic.Lib.ValueIdx

noncomputable section

namespace Cert.QuatCov

open Idealize.ShloMosaic Idealize.ShloMosaic.ValueIdx

/-- The literal 1.0 as both programs print it. -/
abbrev one : EReal := Ideal.ofBits .f32 0x3F800000#32
/-- The literal 2.0 as both programs print it. -/
abbrev two : EReal := Ideal.ofBits .f32 0x40000000#32

/-- The rotation matrix of the quaternion (w, x, y, z), entry by entry, in the grouping both programs use. -/
def rot (w x y z : EReal) : Fin 3 → Fin 3 → EReal :=
  ![![one - two * (y * y + z * z), two * (x * y - w * z), two * (x * z + w * y)],
    ![two * (x * y + w * z), one - two * (x * x + z * z), two * (y * z - w * x)],
    ![two * (x * z - w * y), two * (y * z + w * x), one - two * (x * x + y * y)]]

/-- Entry (i, k) of M · Mᵀ for M = R · diag s: the three products summed from the left. -/
def cov (w x y z : EReal) (s : Fin 3 → EReal) (i k : Fin 3) : EReal :=
  rot w x y z i 0 * s 0 * (rot w x y z k 0 * s 0) + rot w x y z i 1 * s 1 * (rot w x y z k 1 * s 1)
    + rot w x y z i 2 * s 2 * (rot w x y z k 2 * s 2)

/-- A quaternion scaled by the reciprocal square root of its sum of squares. -/
def nrm (q : Fin 4 → EReal) (j : Fin 4) : EReal := q j * Ideal.rsqrt (∑ k : Fin 4, q k * q k)

/-- One row's 3 × 3 result from the row's quaternion and scales. -/
def rowCov (q : Fin 4 → EReal) (s : Fin 3 → EReal) (i k : Fin 3) : EReal :=
  cov (nrm q 0) (nrm q 1) (nrm q 2) (nrm q 3) s i k

/-- The whole result: entry (n, i, k) is row n's 3 × 3 result at (i, k). -/
def G (Q : (⟨2, ![4000000, 4]⟩ : Shape).Idx → EReal) (S : (⟨2, ![4000000, 3]⟩ : Shape).Idx → EReal) :
    (⟨3, ![4000000, 3, 3]⟩ : Shape).Idx → EReal :=
  fun i => rowCov (fun j => Q (ix2 (i 0) j)) (fun j => S (ix2 (i 0) j)) (i 1) (i 2)

/-- The same before the last reshape: entry (n, 3 i + k) of the [N, 9] array. -/
def Gflat (Q : (⟨2, ![4000000, 4]⟩ : Shape).Idx → EReal) (S : (⟨2, ![4000000, 3]⟩ : Shape).Idx → EReal) :
    (⟨2, ![4000000, 9]⟩ : Shape).Idx → EReal :=
  fun i => rowCov (fun j => Q (ix2 (i 0) j)) (fun j => S (ix2 (i 0) j))
    ⟨(i 1).val / 3, by have h9 : (i 1).val < 9 := (i 1).isLt; show (i 1).val / 3 < 3; omega⟩ ⟨(i 1).val % 3, Nat.mod_lt _ (by decide)⟩

/-- Every row of the first input is a row of real numbers, not all zero. -/
def GoodRows (Q : (⟨2, ![4000000, 4]⟩ : Shape).Idx → EReal) : Prop :=
  ∀ n : Fin 4000000, ∃ a : Fin 4 → ℝ, (∀ j, Q (ix2 n j) = (a j : EReal)) ∧ 0 < ∑ j : Fin 4, a j * a j

/-- The sum of squares of a row of reals is the real sum of squares. -/
theorem sum_sq_coe (a : Fin 4 → ℝ) : (∑ k : Fin 4, (a k : EReal) * (a k : EReal)) = ((∑ k : Fin 4, a k * a k : ℝ) : EReal) := by
  simp only [Fin.sum_univ_four, EReal.coe_add, EReal.coe_mul]

/-- Dividing a real by the square root of a positive real sum of squares (the zero word added in front, as a host
    reduction does) is scaling by the reciprocal square root. -/
theorem div_sqrt_eq_nrm (q : Fin 4 → EReal) (a : Fin 4 → ℝ) (hq : ∀ j, q j = (a j : EReal)) (hpos : 0 < ∑ j : Fin 4, a j * a j) (j : Fin 4) :
    Ideal.div (q j) (Ideal.sqrt (Ideal.ofBits .f32 0x00000000#32 + ∑ k : Fin 4, q k * q k)) = nrm q j := by
  have hs : (∑ k : Fin 4, q k * q k) = ((∑ k : Fin 4, a k * a k : ℝ) : EReal) := by
    simp only [hq]; exact sum_sq_coe a
  have hne : Real.sqrt (∑ k : Fin 4, a k * a k) ≠ 0 := (Real.sqrt_pos.2 hpos).ne'
  unfold nrm
  rw [Ideal.ofBits_zero_f32, zero_add, hs, Ideal.sqrt_coe, if_neg (not_lt.2 hpos.le), Ideal.div_coe hne,
    Ideal.rsqrt_coe, if_neg (not_lt.2 hpos.le), if_neg hpos.ne', one_div]

end Cert.QuatCov

end
-- ==== Proof.PreRows.lean ====
/-
  What the precondition says of the first input: every entry is a real number (its absolute value is below +∞), and on every
  row the sum of the squares is positive, so no row is the zero row.
-/
import proofs.«148849_j74457553044377_1_alg».proof.Pre_finite_inputs
import proofs.«148849_j74457553044377_1_alg».proof.Proof.QuatCov
import Idealize.ShloMosaic.Lib.ReduceAll
import Idealize.ShloMosaic.PureOps.Ideal.Laws
import Idealize.ShloMosaic.Lib.ValueIdx

noncomputable section

namespace Cert.PreRows

open Idealize.ShloMosaic Idealize.ShloMosaic.ValueIdx

/-- The scalar shape has one index. -/
local instance : Subsingleton Cert.Pre_finite_inputs.S_.Idx := ⟨fun a b => funext fun d => d.elim0⟩

/-- The word 0x7F800000 is +∞. -/
theorem ofBits_inf_f32 : Ideal.ofBits .f32 0x7F800000#32 = ⊤ := by simp [Ideal.ofBits, Ideal.ieee]

/-- An extended real whose absolute value is below +∞ is a real number: it is neither +∞ nor -∞. -/
theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A boolean's bit is 1 exactly when the boolean is true. -/
theorem ofBool_eq_one {b : Bool} : BitVec.ofBool b = 1#1 ↔ b = true := by cases b <;> decide

/-- The "less than" bit is 1 exactly when the order says so. -/
theorem cmp_olt_eq_one {x y : EReal} : Ideal.cmp .olt x y = 1#1 ↔ x < y := by
  simp only [Ideal.cmp, ofBool_eq_one, decide_eq_true_eq]

/-- The "greater than" bit is 1 exactly when the order says so. -/
theorem cmp_ogt_eq_one {x y : EReal} : Ideal.cmp .ogt x y = 1#1 ↔ y < x := by
  simp only [Ideal.cmp, ofBool_eq_one, decide_eq_true_eq]

/-- The scalar word spread over any shape reads, at every index, the extended real the word denotes. -/
theorem bcast_const_apply {t : Shape} (hb : Cert.Pre_finite_inputs.S_.BroadcastsInDim t ![]) (b : BitVec 32) (j : t.Idx) :
    broadcastInDim t ![] hb (constant (F := Ideal) Cert.Pre_finite_inputs.S_ .f32 b) j = Ideal.ofBits .f32 b := rfl

variable [Cert.Pre_finite_inputs.Facts]

/-- The sum of a row's squares, started from the zero word, read at row n: the sum over the four columns of the square
    of the entry (n, k). -/
theorem rowSumSq_apply (x : FVec Ideal Cert.Pre_finite_inputs.S4000000x4 .f32) (n : Fin 4000000) :
    Host.reduceAdd (mulf x x) (constant Cert.Pre_finite_inputs.S_ .f32 0x00000000#32)
        Cert.Pre_finite_inputs.Facts.reducesTo_S4000000x4_S4000000_d1 Cert.Pre_finite_inputs.Facts.h_S_ (ix1 n)
      = ∑ k : Fin 4, x (ix2 n k) * x (ix2 n k) := by
  have hr : Cert.Pre_finite_inputs.S4000000x4.Reduces [1] Cert.Pre_finite_inputs.S4000000 := by decide
  simp only [Host.reduceAdd, Ideal.hostReduceAdd_def]
  rw [Ideal.hostReduceAdd_single Cert.Pre_finite_inputs.Facts.reducesTo_S4000000x4_S4000000_d1 hr]
  show Ideal.ofBits .f32 0x00000000#32 + _ = _
  rw [Ideal.ofBits_zero_f32, zero_add]
  refine Finset.sum_congr rfl fun k _ => ?_
  -- the index that reduces to row n with k put back on the summed axis is (n, k)
  have hk : hr.lift (ix1 n) k = ix2 n k :=
    funext fun a => Fin.ext (by match a with | ⟨0, _⟩ => rfl | ⟨1, _⟩ => rfl)
  exact congrArg (fun i => x i * x i) hk

/-- Under the precondition the rows of the first input are rows of reals, none of them the zero row. -/
theorem goodRows_of_pre (x0 : FVec Ideal Cert.Pre_finite_inputs.S4000000x4 .f32) (x1 : FVec Ideal Cert.Pre_finite_inputs.S4000000x3 .f32)
    (h : Cert.Pre_finite_inputs.fn (F := Ideal) x0 x1 = fun _ => 1#1) : Cert.QuatCov.GoodRows x0 := by
  -- the conjunction of the three "for all" bits is 1, so each of them is
  have h0 := congrFun h ValueIdx.ix0
  dsimp only [Cert.Pre_finite_inputs.fn] at h0
  obtain ⟨hAB, hC⟩ := IntOp.andi_eq_one.1 h0
  obtain ⟨hA, -⟩ := IntOp.andi_eq_one.1 hAB
  -- every entry's absolute value is below +∞, so every entry is a real number
  have hfin : ∀ i : Cert.Pre_finite_inputs.S4000000x4.Idx, ∃ r : ℝ, x0 i = (r : EReal) := by
    intro i
    have hi := Host.reduce_andi_all _ _ _ _ _ hA i
    rw [cmpf_apply, bcast_const_apply, ofBits_inf_f32] at hi
    exact exists_real_of_abs_lt_top _ (cmp_olt_eq_one.1 hi)
  choose a ha using hfin
  intro n
  refine ⟨fun j => a (ix2 n j), fun j => ha _, ?_⟩
  -- on row n the sum of the squares is above zero; it is the real sum of the squares of the row's reals
  have hn := Host.reduce_andi_all _ _ _ _ _ hC (ix1 n)
  rw [cmpf_apply, bcast_const_apply, Ideal.ofBits_zero_f32, rowSumSq_apply] at hn
  have hn' := cmp_ogt_eq_one.1 hn
  simp only [ha] at hn'
  rw [Cert.QuatCov.sum_sq_coe (fun j => a (ix2 n j))] at hn'
  exact EReal.coe_pos.1 hn'

end Cert.PreRows

end
-- ==== Proof.RefValue.lean ====
/-
  The reference's result, read stage by stage at an index, is the row formula `QuatCov.G` of the two inputs: it divides each
  quaternion by the square root of its sum of squares, which on a nonzero row of reals is the scaling by the reciprocal
  square root; the nine rotation entries, the column scaling and the contraction over the last axis are then the same
  expressions, entry by entry.
-/
import proofs.«148849_j74457553044377_1_alg».proof.Proof.Gen.ReferenceIdeal.Read
import proofs.«148849_j74457553044377_1_alg».proof.Proof.QuatCov

noncomputable section

namespace Cert.RefValue

open Idealize.ShloMosaic Idealize.ShloMosaic.ValueIdx Cert.ReferenceIdeal Cert.ReferenceIdeal.Gen Cert.ReferenceIdeal.Read

/-! ## The normalised quaternion: each entry of row `n` divided by the square root of the row's sum of squares -/

/-- The reduction over the second axis reads row `n` at column `k`. -/
theorem idx_call0_v1 (n : Fin 4000000) (k : Fin 4) : idx_main_call0_v1 (ix1 n) k = ix2 n k :=
  funext fun a => match a with | ⟨0, _⟩ => rfl | ⟨1, _⟩ => rfl

/-- The sum of squares of row `n`, the zero word in front. -/
theorem sumsq_at (x0 : FVec Ideal S4000000x4 .f32) (n : Fin 4000000) :
    val_main_call0_v1 (F := Ideal) x0 (ix1 n)
      = Ideal.ofBits .f32 0x00000000#32 + ∑ k : Fin 4, x0 (ix2 n k) * x0 (ix2 n k) := by
  rw [val_main_call0_v1_apply]
  simp only [idx_call0_v1, val_main_call0_v0_apply, val_main_call0_cst_apply, Ideal.mulf_def, Ideal.ofBits_def]

/-- The norm, broadcast along the row, is read at the row. -/
theorem idx_v0_chain (n : Fin 4000000) (j : Fin 4) : idx_main_call0_v2 (idx_main_v1 (ix2 n j)) = ix1 n :=
  funext fun a => match a with | ⟨0, _⟩ => rfl

/-- Entry `(n, j)` of the quotient: the input's entry over the square root of the row's sum of squares. -/
theorem v2_at (x0 : FVec Ideal S4000000x4 .f32) (n : Fin 4000000) (j : Fin 4) :
    val_main_v2 (F := Ideal) x0 (ix2 n j)
      = Ideal.div (x0 (ix2 n j)) (Ideal.sqrt (Ideal.ofBits .f32 0x00000000#32 + ∑ k : Fin 4, x0 (ix2 n k) * x0 (ix2 n k))) := by
  rw [val_main_v2_apply, val_main_v1_apply, val_main_v0_apply, val_main_call0_v2_apply, idx_v0_chain, sumsq_at]
  simp only [Ideal.hostDivf_def, Ideal.hostUnary_sqrt_def]

/-- On a nonzero row of reals that quotient is the scaling by the reciprocal square root. -/
theorem v2_nrm (x0 : FVec Ideal S4000000x4 .f32) (h : Cert.QuatCov.GoodRows x0) (n : Fin 4000000) (j : Fin 4) :
    val_main_v2 (F := Ideal) x0 (ix2 n j) = Cert.QuatCov.nrm (fun j => x0 (ix2 n j)) j := by
  obtain ⟨a, ha, hpos⟩ := h n
  rw [v2_at]
  exact Cert.QuatCov.div_sqrt_eq_nrm (fun j => x0 (ix2 n j)) a ha hpos j

/-! ## The four components: column `c` of the normalised quaternion as a vector over the rows -/

/-- Slicing column 0 and dropping the unit axis reads entry `(n, 0)`. -/
theorem idx_v4_chain (n : Fin 4000000) : idx_main_v3 (idx_main_v4 (ix1 n)) = ix2 n 0 :=
  funext fun a => match a with | ⟨0, _⟩ => Fin.ext (Nat.div_one _) | ⟨1, _⟩ => rfl

/-- The component `w` of row `n` is entry `(n, 0)` of the normalised quaternion. -/
theorem v4_at (x0 : FVec Ideal S4000000x4 .f32) (n : Fin 4000000) :
    val_main_v4 (F := Ideal) x0 (ix1 n) = val_main_v2 (F := Ideal) x0 (ix2 n 0) := by
  rw [val_main_v4_apply, val_main_v3_apply, idx_v4_chain]

/-- Slicing column 1 and dropping the unit axis reads entry `(n, 1)`. -/
theorem idx_v6_chain (n : Fin 4000000) : idx_main_v5 (idx_main_v6 (ix1 n)) = ix2 n 1 :=
  funext fun a => match a with | ⟨0, _⟩ => Fin.ext (Nat.div_one _) | ⟨1, _⟩ => rfl

/-- The component `x` of row `n` is entry `(n, 1)` of the normalised quaternion. -/
theorem v6_at (x0 : FVec Ideal S4000000x4 .f32) (n : Fin 4000000) :
    val_main_v6 (F := Ideal) x0 (ix1 n) = val_main_v2 (F := Ideal) x0 (ix2 n 1) := by
  rw [val_main_v6_apply, val_main_v5_apply, idx_v6_chain]

/-- Slicing column 2 and dropping the unit axis reads entry `(n, 2)`. -/
theorem idx_v8_chain (n : Fin 4000000) : idx_main_v7 (idx_main_v8 (ix1 n)) = ix2 n 2 :=
  funext fun a => match a with | ⟨0, _⟩ => Fin.ext (Nat.div_one _) | ⟨1, _⟩ => rfl

/-- The component `y` of row `n` is entry `(n, 2)` of the normalised quaternion. -/
theorem v8_at (x0 : FVec Ideal S4000000x4 .f32) (n : Fin 4000000) :
    val_main_v8 (F := Ideal) x0 (ix1 n) = val_main_v2 (F := Ideal) x0 (ix2 n 2) := by
  rw [val_main_v8_apply, val_main_v7_apply, idx_v8_chain]

/-- Slicing column 3 and dropping the unit axis reads entry `(n, 3)`. -/
theorem idx_v10_chain (n : Fin 4000000) : idx_main_v9 (idx_main_v10 (ix1 n)) = ix2 n 3 :=
  funext fun a => match a with | ⟨0, _⟩ => Fin.ext (Nat.div_one _) | ⟨1, _⟩ => rfl

/-- The component `z` of row `n` is entry `(n, 3)` of the normalised quaternion. -/
theorem v10_at (x0 : FVec Ideal S4000000x4 .f32) (n : Fin 4000000) :
    val_main_v10 (F := Ideal) x0 (ix1 n) = val_main_v2 (F := Ideal) x0 (ix2 n 3) := by
  rw [val_main_v10_apply, val_main_v9_apply, idx_v10_chain]

/-! ## The nine rotation entries at row `n`, in the components `w, x, y, z` of that row -/

/-- Entry (0, 0) of the rotation matrix, written with the instance's operations in the reference's grouping. -/
theorem rot_00_ops (w x y z : Ideal .f32) :
    (FloatOps.subf (F := Ideal) (φ := .f32) (FloatOps.ofBits (F := Ideal) .f32 0x3F800000#32) (FloatOps.mulf (F := Ideal) (φ := .f32) (FloatOps.ofBits (F := Ideal) .f32 0x40000000#32) (FloatOps.addf (F := Ideal) (φ := .f32) (FloatOps.mulf (F := Ideal) (φ := .f32) y y) (FloatOps.mulf (F := Ideal) (φ := .f32) z z))))
      = Cert.QuatCov.rot w x y z 0 0 := rfl

/-- The stage that computes entry (0, 0), at row `n`. -/
theorem v17_at (x0 : FVec Ideal S4000000x4 .f32) (n : Fin 4000000) :
    val_main_v17 (F := Ideal) x0 (ix1 n)
      = Cert.QuatCov.rot (val_main_v4 (F := Ideal) x0 (ix1 n)) (val_main_v6 (F := Ideal) x0 (ix1 n))
          (val_main_v8 (F := Ideal) x0 (ix1 n)) (val_main_v10 (F := Ideal) x0 (ix1 n)) 0 0 := by
  rw [val_main_v17_apply, val_main_v16_apply, val_main_cst_0_apply, val_main_v15_apply, val_main_v14_apply, val_main_cst_apply, val_main_v13_apply, val_main_v11_apply, val_main_v12_apply]
  exact rot_00_ops _ _ _ _

/-- Entry (0, 1) of the rotation matrix, written with the instance's operations in the reference's grouping. -/
theorem rot_01_ops (w x y z : Ideal .f32) :
    (FloatOps.mulf (F := Ideal) (φ := .f32) (FloatOps.ofBits (F := Ideal) .f32 0x40000000#32) (FloatOps.subf (F := Ideal) (φ := .f32) (FloatOps.mulf (F := Ideal) (φ := .f32) x y) (FloatOps.mulf (F := Ideal) (φ := .f32) w z)))
      = Cert.QuatCov.rot w x y z 0 1 := rfl

/-- The stage that computes entry (0, 1), at row `n`. -/
theorem v22_at (x0 : FVec Ideal S4000000x4 .f32) (n : Fin 4000000) :
    val_main_v22 (F := Ideal) x0 (ix1 n)
      = Cert.QuatCov.rot (val_main_v4 (F := Ideal) x0 (ix1 n)) (val_main_v6 (F := Ideal) x0 (ix1 n))
          (val_main_v8 (F := Ideal) x0 (ix1 n)) (val_main_v10 (F := Ideal) x0 (ix1 n)) 0 1 := by
  rw [val_main_v22_apply, val_main_v21_apply, val_main_cst_1_apply, val_main_v20_apply, val_main_v18_apply, val_main_v19_apply]
  exact rot_01_ops _ _ _ _

/-- Entry (0, 2) of the rotation matrix, written with the instance's operations in the reference's grouping. -/
theorem rot_02_ops (w x y z : Ideal .f32) :
    (FloatOps.mulf (F := Ideal) (φ := .f32) (FloatOps.ofBits (F := Ideal) .f32 0x40000000#32) (FloatOps.addf (F := Ideal) (φ := .f32) (FloatOps.mulf (F := Ideal) (φ := .f32) x z) (FloatOps.mulf (F := Ideal) (φ := .f32) w y)))
      = Cert.QuatCov.rot w x y z 0 2 := rfl

/-- The stage that computes entry (0, 2), at row `n`. -/
theorem v27_at (x0 : FVec Ideal S4000000x4 .f32) (n : Fin 4000000) :
    val_main_v27 (F := Ideal) x0 (ix1 n)
      = Cert.QuatCov.rot (val_main_v4 (F := Ideal) x0 (ix1 n)) (val_main_v6 (F := Ideal) x0 (ix1 n))
          (val_main_v8 (F := Ideal) x0 (ix1 n)) (val_main_v10 (F := Ideal) x0 (ix1 n)) 0 2 := by
  rw [val_main_v27_apply, val_main_v26_apply, val_main_cst_2_apply, val_main_v25_apply, val_main_v23_apply, val_main_v24_apply]
  exact rot_02_ops _ _ _ _

/-- Entry (1, 0) of the rotation matrix, written with the instance's operations in the reference's grouping. -/
theorem rot_10_ops (w x y z : Ideal .f32) :
    (FloatOps.mulf (F := Ideal) (φ := .f32) (FloatOps.ofBits (F := Ideal) .f32 0x40000000#32) (FloatOps.addf (F := Ideal) (φ := .f32) (FloatOps.mulf (F := Ideal) (φ := .f32) x y) (FloatOps.mulf (F := Ideal) (φ := .f32) w z)))
      = Cert.QuatCov.rot w x y z 1 0 := rfl

/-- The stage that computes entry (1, 0), at row `n`. -/
theorem v32_at (x0 : FVec Ideal S4000000x4 .f32) (n : Fin 4000000) :
    val_main_v32 (F := Ideal) x0 (ix1 n)
      = Cert.QuatCov.rot (val_main_v4 (F := Ideal) x0 (ix1 n)) (val_main_v6 (F := Ideal) x0 (ix1 n))
          (val_main_v8 (F := Ideal) x0 (ix1 n)) (val_main_v10 (F := Ideal) x0 (ix1 n)) 1 0 := by
  rw [val_main_v32_apply, val_main_v31_apply, val_main_cst_3_apply, val_main_v30_apply, val_main_v28_apply, val_main_v29_apply]
  exact rot_10_ops _ _ _ _

/-- Entry (1, 1) of the rotation matrix, written with the instance's operations in the reference's grouping. -/
theorem rot_11_ops (w x y z : Ideal .f32) :
    (FloatOps.subf (F := Ideal) (φ := .f32) (FloatOps.ofBits (F := Ideal) .f32 0x3F800000#32) (FloatOps.mulf (F := Ideal) (φ := .f32) (FloatOps.ofBits (F := Ideal) .f32 0x40000000#32) (FloatOps.addf (F := Ideal) (φ := .f32) (FloatOps.mulf (F := Ideal) (φ := .f32) x x) (FloatOps.mulf (F := Ideal) (φ := .f32) z z))))
      = Cert.QuatCov.rot w x y z 1 1 := rfl

/-- The stage that computes entry (1, 1), at row `n`. -/
theorem v39_at (x0 : FVec Ideal S4000000x4 .f32) (n : Fin 4000000) :
    val_main_v39 (F := Ideal) x0 (ix1 n)
      = Cert.QuatCov.rot (val_main_v4 (F := Ideal) x0 (ix1 n)) (val_main_v6 (F := Ideal) x0 (ix1 n))
          (val_main_v8 (F := Ideal) x0 (ix1 n)) (val_main_v10 (F := Ideal) x0 (ix1 n)) 1 1 := by
  rw [val_main_v39_apply, val_main_v38_apply, val_main_cst_5_apply, val_main_v37_apply, val_main_v36_apply, val_main_cst_4_apply, val_main_v35_apply, val_main_v33_apply, val_main_v34_apply]
  exact rot_11_ops _ _ _ _

/-- Entry (1, 2) of the rotation matrix, written with the instance's operations in the reference's grouping. -/
theorem rot_12_ops (w x y z : Ideal .f32) :
    (FloatOps.mulf (F := Ideal) (φ := .f32) (FloatOps.ofBits (F := Ideal) .f32 0x40000000#32) (FloatOps.subf (F := Ideal) (φ := .f32) (FloatOps.mulf (F := Ideal) (φ := .f32) y z) (FloatOps.mulf (F := Ideal) (φ := .f32) w x)))
      = Cert.QuatCov.rot w x y z 1 2 := rfl

/-- The stage that computes entry (1, 2), at row `n`. -/
theorem v44_at (x0 : FVec Ideal S4000000x4 .f32) (n : Fin 4000000) :
    val_main_v44 (F := Ideal) x0 (ix1 n)
      = Cert.QuatCov.rot (val_main_v4 (F := Ideal) x0 (ix1 n)) (val_main_v6 (F := Ideal) x0 (ix1 n))
          (val_main_v8 (F := Ideal) x0 (ix1 n)) (val_main_v10 (F := Ideal) x0 (ix1 n)) 1 2 := by
  rw [val_main_v44_apply, val_main_v43_apply, val_main_cst_6_apply, val_main_v42_apply, val_main_v40_apply, val_main_v41_apply]
  exact rot_12_ops _ _ _ _

/-- Entry (2, 0) of the rotation matrix, written with the instance's operations in the reference's grouping. -/
theorem rot_20_ops (w x y z : Ideal .f32) :
    (FloatOps.mulf (F := Ideal) (φ := .f32) (FloatOps.ofBits (F := Ideal) .f32 0x40000000#32) (FloatOps.subf (F := Ideal) (φ := .f32) (FloatOps.mulf (F := Ideal) (φ := .f32) x z) (FloatOps.mulf (F := Ideal) (φ := .f32) w y)))
      = Cert.QuatCov.rot w x y z 2 0 := rfl

/-- The stage that computes entry (2, 0), at row `n`. -/
theorem v49_at (x0 : FVec Ideal S4000000x4 .f32) (n : Fin 4000000) :
    val_main_v49 (F := Ideal) x0 (ix1 n)
      = Cert.QuatCov.rot (val_main_v4 (F := Ideal) x0 (ix1 n)) (val_main_v6 (F := Ideal) x0 (ix1 n))
          (val_main_v8 (F := Ideal) x0 (ix1 n)) (val_main_v10 (F := Ideal) x0 (ix1 n)) 2 0 := by
  rw [val_main_v49_apply, val_main_v48_apply, val_main_cst_7_apply, val_main_v47_apply, val_main_v45_apply, val_main_v46_apply]
  exact rot_20_ops _ _ _ _

/-- Entry (2, 1) of the rotation matrix, written with the instance's operations in the reference's grouping. -/
theorem rot_21_ops (w x y z : Ideal .f32) :
    (FloatOps.mulf (F := Ideal) (φ := .f32) (FloatOps.ofBits (F := Ideal) .f32 0x40000000#32) (FloatOps.addf (F := Ideal) (φ := .f32) (FloatOps.mulf (F := Ideal) (φ := .f32) y z) (FloatOps.mulf (F := Ideal) (φ := .f32) w x)))
      = Cert.QuatCov.rot w x y z 2 1 := rfl

/-- The stage that computes entry (2, 1), at row `n`. -/
theorem v54_at (x0 : FVec Ideal S4000000x4 .f32) (n : Fin 4000000) :
    val_main_v54 (F := Ideal) x0 (ix1 n)
      = Cert.QuatCov.rot (val_main_v4 (F := Ideal) x0 (ix1 n)) (val_main_v6 (F := Ideal) x0 (ix1 n))
          (val_main_v8 (F := Ideal) x0 (ix1 n)) (val_main_v10 (F := Ideal) x0 (ix1 n)) 2 1 := by
  rw [val_main_v54_apply, val_main_v53_apply, val_main_cst_8_apply, val_main_v52_apply, val_main_v50_apply, val_main_v51_apply]
  exact rot_21_ops _ _ _ _

/-- Entry (2, 2) of the rotation matrix, written with the instance's operations in the reference's grouping. -/
theorem rot_22_ops (w x y z : Ideal .f32) :
    (FloatOps.subf (F := Ideal) (φ := .f32) (FloatOps.ofBits (F := Ideal) .f32 0x3F800000#32) (FloatOps.mulf (F := Ideal) (φ := .f32) (FloatOps.ofBits (F := Ideal) .f32 0x40000000#32) (FloatOps.addf (F := Ideal) (φ := .f32) (FloatOps.mulf (F := Ideal) (φ := .f32) x x) (FloatOps.mulf (F := Ideal) (φ := .f32) y y))))
      = Cert.QuatCov.rot w x y z 2 2 := rfl

/-- The stage that computes entry (2, 2), at row `n`. -/
theorem v61_at (x0 : FVec Ideal S4000000x4 .f32) (n : Fin 4000000) :
    val_main_v61 (F := Ideal) x0 (ix1 n)
      = Cert.QuatCov.rot (val_main_v4 (F := Ideal) x0 (ix1 n)) (val_main_v6 (F := Ideal) x0 (ix1 n))
          (val_main_v8 (F := Ideal) x0 (ix1 n)) (val_main_v10 (F := Ideal) x0 (ix1 n)) 2 2 := by
  rw [val_main_v61_apply, val_main_v60_apply, val_main_cst_10_apply, val_main_v59_apply, val_main_v58_apply, val_main_cst_9_apply, val_main_v57_apply, val_main_v55_apply, val_main_v56_apply]
  exact rot_22_ops _ _ _ _

/-! ## The nine entries joined to [N, 9] and reshaped to [N, 3, 3]; the scales broadcast to [N, 3, 3] -/

/-- Nine functions listed, then applied: the list of their values. -/
theorem vec9_apply {β α : Type} (f0 f1 f2 f3 f4 f5 f6 f7 f8 : β → α) (y : β) (e : Fin 9) :
    (![f0, f1, f2, f3, f4, f5, f6, f7, f8] : Fin 9 → β → α) e y = (![f0 y, f1 y, f2 y, f3 y, f4 y, f5 y, f6 y, f7 y, f8 y] : Fin 9 → α) e := by
  match e with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨_ + 9, h⟩ => exact absurd h (by omega)

/-- Nine [N, 1] columns joined along the short axis, read at (n, e): column e at row n. -/
theorem cat9_at {α : Type} (c0 c1 c2 c3 c4 c5 c6 c7 c8 : S4000000x1.Idx → α)
    (h : Shape.Concatenates [S4000000x1, S4000000x1, S4000000x1, S4000000x1, S4000000x1, S4000000x1, S4000000x1, S4000000x1, S4000000x1] S4000000x9 1)
    (n : Fin 4000000) (e : Fin 9) :
    concatenate S4000000x9 1 [⟨S4000000x1, c0⟩, ⟨S4000000x1, c1⟩, ⟨S4000000x1, c2⟩, ⟨S4000000x1, c3⟩, ⟨S4000000x1, c4⟩, ⟨S4000000x1, c5⟩,
        ⟨S4000000x1, c6⟩, ⟨S4000000x1, c7⟩, ⟨S4000000x1, c8⟩] h (ix2 n e)
      = (![c0, c1, c2, c3, c4, c5, c6, c7, c8] : Fin 9 → S4000000x1.Idx → α) e (ix2 n (0 : Fin 1)) :=
  concatenate_ofFn_unit_apply (t := S4000000x9) (s₁ := S4000000x1) (1 : Fin 2)
    (![c0, c1, c2, c3, c4, c5, c6, c7, c8] : Fin 9 → S4000000x1.Idx → α) h rfl rfl (ix2 n e) e rfl (ix2 n (0 : Fin 1))
    (fun b hb => by match b with | ⟨0, _⟩ => rfl | ⟨1, _⟩ => exact absurd rfl hb)

/-- Each [N, 1] column of the rotation array is one entry vector: its index map sends (n, 0) to n. -/
theorem hidx62 (n : Fin 4000000) : idx_main_v62 (ix2 n (0 : Fin 1)) = ix1 n := funext fun a => Fin.ext (by match a with | ⟨0, _⟩ => rfl)
theorem hidx63 (n : Fin 4000000) : idx_main_v63 (ix2 n (0 : Fin 1)) = ix1 n := funext fun a => Fin.ext (by match a with | ⟨0, _⟩ => rfl)
theorem hidx64 (n : Fin 4000000) : idx_main_v64 (ix2 n (0 : Fin 1)) = ix1 n := funext fun a => Fin.ext (by match a with | ⟨0, _⟩ => rfl)
theorem hidx65 (n : Fin 4000000) : idx_main_v65 (ix2 n (0 : Fin 1)) = ix1 n := funext fun a => Fin.ext (by match a with | ⟨0, _⟩ => rfl)
theorem hidx66 (n : Fin 4000000) : idx_main_v66 (ix2 n (0 : Fin 1)) = ix1 n := funext fun a => Fin.ext (by match a with | ⟨0, _⟩ => rfl)
theorem hidx67 (n : Fin 4000000) : idx_main_v67 (ix2 n (0 : Fin 1)) = ix1 n := funext fun a => Fin.ext (by match a with | ⟨0, _⟩ => rfl)
theorem hidx68 (n : Fin 4000000) : idx_main_v68 (ix2 n (0 : Fin 1)) = ix1 n := funext fun a => Fin.ext (by match a with | ⟨0, _⟩ => rfl)
theorem hidx69 (n : Fin 4000000) : idx_main_v69 (ix2 n (0 : Fin 1)) = ix1 n := funext fun a => Fin.ext (by match a with | ⟨0, _⟩ => rfl)
theorem hidx70 (n : Fin 4000000) : idx_main_v70 (ix2 n (0 : Fin 1)) = ix1 n := funext fun a => Fin.ext (by match a with | ⟨0, _⟩ => rfl)

/-- The [N, 9] array of rotation entries read at (n, e): the e-th of the nine entry vectors at row n. -/
theorem v71_at (x0 : FVec Ideal S4000000x4 .f32) (n : Fin 4000000) (e : Fin 9) :
    val_main_v71 (F := Ideal) x0 (ix2 n e)
      = (![val_main_v17 (F := Ideal) x0, val_main_v22 (F := Ideal) x0, val_main_v27 (F := Ideal) x0, val_main_v32 (F := Ideal) x0,
          val_main_v39 (F := Ideal) x0, val_main_v44 (F := Ideal) x0, val_main_v49 (F := Ideal) x0, val_main_v54 (F := Ideal) x0,
          val_main_v61 (F := Ideal) x0] : Fin 9 → FVec Ideal S4000000 .f32) e (ix1 n) := by
  unfold val_main_v71
  refine (cat9_at (val_main_v62 (F := Ideal) x0) (val_main_v63 (F := Ideal) x0) (val_main_v64 (F := Ideal) x0) (val_main_v65 (F := Ideal) x0)
    (val_main_v66 (F := Ideal) x0) (val_main_v67 (F := Ideal) x0) (val_main_v68 (F := Ideal) x0) (val_main_v69 (F := Ideal) x0)
    (val_main_v70 (F := Ideal) x0) _ n e).trans ?_
  rw [vec9_apply, vec9_apply, val_main_v62_apply, val_main_v63_apply, val_main_v64_apply, val_main_v65_apply, val_main_v66_apply,
    val_main_v67_apply, val_main_v68_apply, val_main_v69_apply, val_main_v70_apply,
    hidx62, hidx63, hidx64, hidx65, hidx66, hidx67, hidx68, hidx69, hidx70]

/-- The [N, 3, 3] rotation array read at (n, a, k): entry 3 a + k of row n. -/
theorem v72_at (x0 : FVec Ideal S4000000x4 .f32) (n : Fin 4000000) (a k : Fin 3) :
    val_main_v72 (F := Ideal) x0 (ix3 n a k)
      = (![val_main_v17 (F := Ideal) x0, val_main_v22 (F := Ideal) x0, val_main_v27 (F := Ideal) x0, val_main_v32 (F := Ideal) x0,
          val_main_v39 (F := Ideal) x0, val_main_v44 (F := Ideal) x0, val_main_v49 (F := Ideal) x0, val_main_v54 (F := Ideal) x0,
          val_main_v61 (F := Ideal) x0] : Fin 9 → FVec Ideal S4000000 .f32) ⟨3 * a.val + k.val, by have := a.isLt; have := k.isLt; omega⟩ (ix1 n) := by
  have ha : a.val < 3 := a.isLt
  have hk : k.val < 3 := k.isLt
  have e : idx_main_v72 (ix3 n a k) = ix2 n (⟨3 * a.val + k.val, by omega⟩ : Fin 9) := funext fun b => Fin.ext (by
    match b with
    | ⟨0, _⟩ => show ((n.val * 3 + a.val) * 3 + k.val) / 9 = n.val; omega
    | ⟨1, _⟩ => show ((n.val * 3 + a.val) * 3 + k.val) % 9 = 3 * a.val + k.val; omega)
  rw [val_main_v72_apply, e, v71_at]

/-- The scales broadcast to [N, 3, 3] read at (n, a, k): the scale of row n, column k. -/
theorem v74_at (x1 : FVec Ideal S4000000x3 .f32) (n : Fin 4000000) (a k : Fin 3) :
    val_main_v74 (F := Ideal) x1 (ix3 n a k) = x1 (ix2 n k) := by
  have e1 : idx_main_v74 (ix3 n a k) = ix3 n (0 : Fin 1) k := funext fun b => Fin.ext (by match b with | ⟨0, _⟩ => rfl | ⟨1, _⟩ => rfl | ⟨2, _⟩ => rfl)
  have e2 : idx_main_v73 (ix3 n (0 : Fin 1) k) = ix2 n k := funext fun b => Fin.ext (by match b with | ⟨0, _⟩ => rfl | ⟨1, _⟩ => rfl)
  rw [val_main_v74_apply, e1, val_main_v73_apply, e2]

/-! ## The rotation matrix of row `n`, the scaled matrix, and the contraction -/

/-- The rotation matrix of row `n`'s quaternion scaled by the reciprocal square root of its sum of squares. -/
abbrev rowRot (x0 : FVec Ideal S4000000x4 .f32) (n : Fin 4000000) : Fin 3 → Fin 3 → EReal :=
  Cert.QuatCov.rot (Cert.QuatCov.nrm (fun j => x0 (ix2 n j)) 0) (Cert.QuatCov.nrm (fun j => x0 (ix2 n j)) 1)
    (Cert.QuatCov.nrm (fun j => x0 (ix2 n j)) 2) (Cert.QuatCov.nrm (fun j => x0 (ix2 n j)) 3)

/-- The component `w` of row `n` is the scaled quaternion's entry 0. -/
theorem w_at (x0 : FVec Ideal S4000000x4 .f32) (h : Cert.QuatCov.GoodRows x0) (n : Fin 4000000) :
    val_main_v4 (F := Ideal) x0 (ix1 n) = Cert.QuatCov.nrm (fun j => x0 (ix2 n j)) 0 := by
  rw [v4_at, v2_nrm x0 h]

/-- The component `x` of row `n` is the scaled quaternion's entry 1. -/
theorem x_at (x0 : FVec Ideal S4000000x4 .f32) (h : Cert.QuatCov.GoodRows x0) (n : Fin 4000000) :
    val_main_v6 (F := Ideal) x0 (ix1 n) = Cert.QuatCov.nrm (fun j => x0 (ix2 n j)) 1 := by
  rw [v6_at, v2_nrm x0 h]

/-- The component `y` of row `n` is the scaled quaternion's entry 2. -/
theorem y_at (x0 : FVec Ideal S4000000x4 .f32) (h : Cert.QuatCov.GoodRows x0) (n : Fin 4000000) :
    val_main_v8 (F := Ideal) x0 (ix1 n) = Cert.QuatCov.nrm (fun j => x0 (ix2 n j)) 2 := by
  rw [v8_at, v2_nrm x0 h]

/-- The component `z` of row `n` is the scaled quaternion's entry 3. -/
theorem z_at (x0 : FVec Ideal S4000000x4 .f32) (h : Cert.QuatCov.GoodRows x0) (n : Fin 4000000) :
    val_main_v10 (F := Ideal) x0 (ix1 n) = Cert.QuatCov.nrm (fun j => x0 (ix2 n j)) 3 := by
  rw [v10_at, v2_nrm x0 h]

/-- The stage of entry (0, 0) at row `n` is that entry of the row's rotation matrix. -/
theorem r00_at (x0 : FVec Ideal S4000000x4 .f32) (h : Cert.QuatCov.GoodRows x0) (n : Fin 4000000) :
    val_main_v17 (F := Ideal) x0 (ix1 n) = rowRot x0 n 0 0 := by
  rw [v17_at, w_at x0 h, x_at x0 h, y_at x0 h, z_at x0 h]

/-- The stage of entry (0, 1) at row `n` is that entry of the row's rotation matrix. -/
theorem r01_at (x0 : FVec Ideal S4000000x4 .f32) (h : Cert.QuatCov.GoodRows x0) (n : Fin 4000000) :
    val_main_v22 (F := Ideal) x0 (ix1 n) = rowRot x0 n 0 1 := by
  rw [v22_at, w_at x0 h, x_at x0 h, y_at x0 h, z_at x0 h]

/-- The stage of entry (0, 2) at row `n` is that entry of the row's rotation matrix. -/
theorem r02_at (x0 : FVec Ideal S4000000x4 .f32) (h : Cert.QuatCov.GoodRows x0) (n : Fin 4000000) :
    val_main_v27 (F := Ideal) x0 (ix1 n) = rowRot x0 n 0 2 := by
  rw [v27_at, w_at x0 h, x_at x0 h, y_at x0 h, z_at x0 h]

/-- The stage of entry (1, 0) at row `n` is that entry of the row's rotation matrix. -/
theorem r10_at (x0 : FVec Ideal S4000000x4 .f32) (h : Cert.QuatCov.GoodRows x0) (n : Fin 4000000) :
    val_main_v32 (F := Ideal) x0 (ix1 n) = rowRot x0 n 1 0 := by
  rw [v32_at, w_at x0 h, x_at x0 h, y_at x0 h, z_at x0 h]

/-- The stage of entry (1, 1) at row `n` is that entry of the row's rotation matrix. -/
theorem r11_at (x0 : FVec Ideal S4000000x4 .f32) (h : Cert.QuatCov.GoodRows x0) (n : Fin 4000000) :
    val_main_v39 (F := Ideal) x0 (ix1 n) = rowRot x0 n 1 1 := by
  rw [v39_at, w_at x0 h, x_at x0 h, y_at x0 h, z_at x0 h]

/-- The stage of entry (1, 2) at row `n` is that entry of the row's rotation matrix. -/
theorem r12_at (x0 : FVec Ideal S4000000x4 .f32) (h : Cert.QuatCov.GoodRows x0) (n : Fin 4000000) :
    val_main_v44 (F := Ideal) x0 (ix1 n) = rowRot x0 n 1 2 := by
  rw [v44_at, w_at x0 h, x_at x0 h, y_at x0 h, z_at x0 h]

/-- The stage of entry (2, 0) at row `n` is that entry of the row's rotation matrix. -/
theorem r20_at (x0 : FVec Ideal S4000000x4 .f32) (h : Cert.QuatCov.GoodRows x0) (n : Fin 4000000) :
    val_main_v49 (F := Ideal) x0 (ix1 n) = rowRot x0 n 2 0 := by
  rw [v49_at, w_at x0 h, x_at x0 h, y_at x0 h, z_at x0 h]

/-- The stage of entry (2, 1) at row `n` is that entry of the row's rotation matrix. -/
theorem r21_at (x0 : FVec Ideal S4000000x4 .f32) (h : Cert.QuatCov.GoodRows x0) (n : Fin 4000000) :
    val_main_v54 (F := Ideal) x0 (ix1 n) = rowRot x0 n 2 1 := by
  rw [v54_at, w_at x0 h, x_at x0 h, y_at x0 h, z_at x0 h]

/-- The stage of entry (2, 2) at row `n` is that entry of the row's rotation matrix. -/
theorem r22_at (x0 : FVec Ideal S4000000x4 .f32) (h : Cert.QuatCov.GoodRows x0) (n : Fin 4000000) :
    val_main_v61 (F := Ideal) x0 (ix1 n) = rowRot x0 n 2 2 := by
  rw [v61_at, w_at x0 h, x_at x0 h, y_at x0 h, z_at x0 h]

/-- Nine values laid out in a row of nine, read at position `3 a + k`, are the 3 × 3 array's entry `(a, k)`. -/
theorem pick9 {ι β : Type} (f0 f1 f2 f3 f4 f5 f6 f7 f8 : ι → β) (j : ι) (P : Fin 3 → Fin 3 → β)
    (h00 : f0 j = P 0 0) (h01 : f1 j = P 0 1) (h02 : f2 j = P 0 2)
    (h10 : f3 j = P 1 0) (h11 : f4 j = P 1 1) (h12 : f5 j = P 1 2)
    (h20 : f6 j = P 2 0) (h21 : f7 j = P 2 1) (h22 : f8 j = P 2 2) (a k : Fin 3) :
    ∀ hlt : 3 * a.val + k.val < 9,
      (![f0, f1, f2, f3, f4, f5, f6, f7, f8] : Fin 9 → ι → β) ⟨3 * a.val + k.val, hlt⟩ j = P a k := by
  fin_cases a <;> fin_cases k <;> intro hlt
  · exact h00
  · exact h01
  · exact h02
  · exact h10
  · exact h11
  · exact h12
  · exact h20
  · exact h21
  · exact h22

/-- Entry `(n, a, k)` of the reshaped [N, 3, 3] array is entry `(a, k)` of row `n`'s rotation matrix. -/
theorem v72_rot (x0 : FVec Ideal S4000000x4 .f32) (h : Cert.QuatCov.GoodRows x0) (n : Fin 4000000) (a k : Fin 3) :
    val_main_v72 (F := Ideal) x0 (ix3 n a k) = rowRot x0 n a k := by
  rw [v72_at]
  exact pick9 (ι := S4000000.Idx) (β := EReal) _ _ _ _ _ _ _ _ _ (ix1 n) (rowRot x0 n)
    (r00_at x0 h n) (r01_at x0 h n) (r02_at x0 h n) (r10_at x0 h n) (r11_at x0 h n) (r12_at x0 h n)
    (r20_at x0 h n) (r21_at x0 h n) (r22_at x0 h n) a k _

/-- Entry `(n, a, k)` of the scaled matrix: the rotation entry times the row's scale `k`. -/
theorem v75_at (x0 : FVec Ideal S4000000x4 .f32) (x1 : FVec Ideal S4000000x3 .f32) (h : Cert.QuatCov.GoodRows x0)
    (n : Fin 4000000) (a k : Fin 3) :
    val_main_v75 (F := Ideal) x0 x1 (ix3 n a k) = rowRot x0 n a k * x1 (ix2 n k) := by
  rw [val_main_v75_apply, v72_rot x0 h, v74_at, Ideal.mulf_def]

/-- The contraction reads its left operand at `(n, a, k)` … -/
theorem lidx_eq (n : Fin 4000000) (a b k : Fin 3) : lidx_main_v76 (ix3 n a b) k = ix3 n a k :=
  funext fun d => match d with | ⟨0, _⟩ => rfl | ⟨1, _⟩ => rfl | ⟨2, _⟩ => rfl

/-- … and its right operand at `(n, b, k)`. -/
theorem ridx_eq (n : Fin 4000000) (a b k : Fin 3) : ridx_main_v76 (ix3 n a b) k = ix3 n b k :=
  funext fun d => match d with | ⟨0, _⟩ => rfl | ⟨1, _⟩ => rfl | ⟨2, _⟩ => rfl

/-- Entry `(n, a, b)` of `G`: the three products of scaled rotation entries, summed from the left. -/
theorem G_at (x0 : FVec Ideal S4000000x4 .f32) (x1 : FVec Ideal S4000000x3 .f32) (n : Fin 4000000) (a b : Fin 3) :
    Cert.QuatCov.G x0 x1 (ix3 n a b)
      = rowRot x0 n a 0 * x1 (ix2 n 0) * (rowRot x0 n b 0 * x1 (ix2 n 0))
        + rowRot x0 n a 1 * x1 (ix2 n 1) * (rowRot x0 n b 1 * x1 (ix2 n 1))
        + rowRot x0 n a 2 * x1 (ix2 n 2) * (rowRot x0 n b 2 * x1 (ix2 n 2)) := rfl

/-- The reference's last stage is `G` of the inputs, when the first input's rows are real and nonzero. -/
theorem ref_eq (x0 : FVec Ideal S4000000x4 .f32) (x1 : FVec Ideal S4000000x3 .f32) (h : Cert.QuatCov.GoodRows x0) :
    val_main_v76 (F := Ideal) x0 x1 = Cert.QuatCov.G x0 x1 := by
  funext i
  obtain ⟨n, a, b, rfl⟩ : ∃ n a b, i = ix3 n a b := ⟨i 0, i 1, i 2, eq_ix3 i⟩
  rw [G_at, val_main_v76_apply, Fin.sum_univ_three, lidx_eq, lidx_eq, lidx_eq, ridx_eq, ridx_eq, ridx_eq,
    v75_at x0 x1 h n a 0, v75_at x0 x1 h n a 1, v75_at x0 x1 h n a 2,
    v75_at x0 x1 h n b 0, v75_at x0 x1 h n b 1, v75_at x0 x1 h n b 2]

end Cert.RefValue

end
-- ==== Proof.KernelValue.lean ====
/-
  The kernel's run, read as values. Grid point t loads rows 2000 t … 2000 t + 1999 of both inputs, scales each quaternion row by
  the reciprocal square root of its sum of squares (a lane sum over four entries), forms the nine rotation entries, scales the
  columns, and stores the nine sums of three products as the nine columns of its [2000, 9] block. The blocks tile the [N, 9]
  array, so the array ends at `QuatCov.Gflat` of the arguments, and the reshape after the region reads entry (n, i, k) at
  (n, 3 i + k): the result is `QuatCov.G`.
-/
import proofs.«148849_j74457553044377_1_alg».proof.Proof.Gen.KernelIdeal.Frame
import proofs.«148849_j74457553044377_1_alg».proof.Proof.QuatCov
import Idealize.ShloMosaic.Lib.Pipeline.Value
import Idealize.ShloMosaic.Lib.ValueIdx
import Idealize.ShloMosaic.PureOps.Ideal.Laws

noncomputable section

namespace Cert.KernelValue

open Idealize.ShloMosaic Idealize.ShloMosaic.TcCoe Idealize.ShloMosaic.ValueIdx Idealize.SL.Sem Cert.KernelIdeal Cert.KernelIdeal.Gen
open Idealize.ShloMosaic.Pipeline (Dat)
open Cert.QuatCov (nrm rowCov cov rot one two G Gflat)

/-! ## One block: the stored value at an index -/

/-- The lane sum of the squares of row p of a [2000, 4] block. -/
theorem sumsq_at (x0 : Vec Ideal S2000x4 .f32) (p : Fin 2000) (hφ : FKind.Formats FTy.f32)
    (hacc : (0x00000000#32 : BitVec 32) = 0x00000000#32) :
    multiReduction (F := Ideal) .add [1] S2000 (mulf x0 x0) 0x00000000#32 reduces_S2000x4_S2000 hφ hacc (ix1 p)
      = ∑ k : Fin 4, x0 (ix2 p k) * x0 (ix2 p k) := by
  refine (Ideal.multiReduction_add_single (mulf x0 x0) 0x00000000#32 reduces_S2000x4_S2000 hφ hacc (ix1 p)).trans ?_
  refine Finset.sum_congr rfl fun k _ => ?_
  have e : (reduces_S2000x4_S2000).lift (ix1 p) k = ix2 p k := funext fun a => Fin.ext (by match a with | ⟨0, _⟩ => rfl | ⟨1, _⟩ => rfl)
  rw [e]; rfl

/-- A column [2000, 1] broadcast along the lanes reads its row. -/
theorem col_bcast_at {α : Type} (v : S2000x1.Idx → α) (p : Fin 2000) (j : Fin 4) :
    broadcastTo S2000x4 v broadcasts_S2000x1_S2000x4 (ix2 p j) = v (ix2 p (0 : Fin 1)) :=
  broadcastTo_apply v broadcasts_S2000x1_S2000x4 (ix2 p j) (ix2 p (0 : Fin 1)) (fun a => by
    match a with
    | ⟨0, _⟩ => show p.val = if (2000 : Nat) = 1 then 0 else p.val; rw [if_neg (by decide)]
    | ⟨1, _⟩ => show 0 = if (1 : Nat) = 1 then 0 else _; rw [if_pos rfl])

/-- A vector [2000] viewed as a column [2000, 1] reads its entry. -/
theorem as_col_at {α : Type} (u : S2000.Idx → α) (p : Fin 2000) :
    shapeCast S2000x1 u shapeCasts_S2000_S2000x1 (ix2 p (0 : Fin 1)) = u (ix1 p) :=
  shapeCast_apply u shapeCasts_S2000_S2000x1 (ix2 p (0 : Fin 1)) (ix1 p) (by
    rw [Shape.rowMajor_val_one, Shape.rowMajor_val_two]; show p.val = p.val * 1 + 0; omega)

/-- Row p, column j of the block scaled by the reciprocal square root of its rows' sums of squares. -/
theorem qn_at (x0 : Vec Ideal S2000x4 .f32) (p : Fin 2000) (j : Fin 4) :
    k0_pay2 (F := Ideal) x0 (ix2 p j) = nrm (fun j => x0 (ix2 p j)) j := by
  unfold k0_pay2 nrm
  show x0 (ix2 p j) * _ = x0 (ix2 p j) * _
  refine congrArg (x0 (ix2 p j) * ·) ?_
  refine (col_bcast_at _ p j).trans ?_
  show Ideal.rsqrt _ = Ideal.rsqrt _
  refine congrArg Ideal.rsqrt ?_
  refine (as_col_at _ p).trans ?_
  exact sumsq_at x0 p _ _

theorem hz2 : (![0, 0] : Fin 2 → Nat) = fun _ => 0 := funext fun a => by fin_cases a <;> rfl

/-- Column j of a [2000, 4] block as a [2000, 1] column reads the block at (p, j). -/
theorem col4_at {α : Type} (v : S2000x4.Idx → α) (p : Fin 2000) (j : Fin 4) (h : S2000x4.Slices ![0, j.val] S2000x1) :
    extractStridedSlice S2000x1 ![0, j.val] v h (ix2 p (0 : Fin 1)) = v (ix2 p j) :=
  extractStridedSlice_apply ![0, j.val] v h (ix2 p (0 : Fin 1)) (ix2 p j) (fun a => by
    match a with
    | ⟨0, _⟩ => show p.val = 0 + p.val; omega
    | ⟨1, _⟩ => show j.val = j.val + 0; omega)

/-- Column j of a [2000, 3] block as a [2000, 1] column reads the block at (p, j). -/
theorem col3_at {α : Type} (v : S2000x3.Idx → α) (p : Fin 2000) (j : Fin 3) (h : S2000x3.Slices ![0, j.val] S2000x1) :
    extractStridedSlice S2000x1 ![0, j.val] v h (ix2 p (0 : Fin 1)) = v (ix2 p j) :=
  extractStridedSlice_apply ![0, j.val] v h (ix2 p (0 : Fin 1)) (ix2 p j) (fun a => by
    match a with
    | ⟨0, _⟩ => show p.val = 0 + p.val; omega
    | ⟨1, _⟩ => show j.val = j.val + 0; omega)

/-- The stored [2000, 9] value at column e is the e-th of its nine columns, over arbitrary columns. -/
theorem pay1_at (v66 v67 v68 v69 v70 v71 v72 v73 v74 v79 v84 v89 v94 v99 v100 v101 : FVec Ideal S2000x1 .f32) (p : Fin 2000) (e : Fin 9) :
    k0_pay1 (F := Ideal) v66 v67 v68 v69 v70 v71 v72 v73 v74 v79 v84 v89 v94 v99 v100 v101 (ix2 p e)
      = (![v79, v84, v89, v94, v99, addf (addf v100 v101) (mulf v71 v74), addf (addf (mulf v72 v66) (mulf v73 v67)) (mulf v74 v68),
          addf (addf (mulf v72 v69) (mulf v73 v70)) (mulf v74 v71), addf (addf (mulf v72 v72) (mulf v73 v73)) (mulf v74 v74)]
            : Fin 9 → FVec Ideal S2000x1 .f32) e (ix2 p (0 : Fin 1)) := by
  unfold k0_pay1
  exact concatenate_ofFn_unit_apply (t := S2000x9) (s₁ := S2000x1) (1 : Fin 2)
    (![v79, v84, v89, v94, v99, addf (addf v100 v101) (mulf v71 v74), addf (addf (mulf v72 v66) (mulf v73 v67)) (mulf v74 v68),
          addf (addf (mulf v72 v69) (mulf v73 v70)) (mulf v74 v71), addf (addf (mulf v72 v72) (mulf v73 v73)) (mulf v74 v74)]
            : Fin 9 → FVec Ideal S2000x1 .f32)
    concatenates_S2000x1_S2000x1_S2000x1_S2000x1_S2000x1_S2000x1_S2000x1_S2000x1_S2000x1_S2000x9_d1 rfl rfl (ix2 p e) e rfl (ix2 p (0 : Fin 1))
    (fun b hb => by match b with | ⟨0, _⟩ => rfl | ⟨1, _⟩ => exact absurd rfl hb)

/-- The stored block at (p, e), in the four columns of the scaled quaternion and the three scale columns at row p. -/
theorem out_leaf (x0 : Vec Ideal S2000x4 .f32) (x1 : Vec Ideal S2000x3 .f32) (p : Fin 2000) (e : Fin 9) :
    out0_2 (F := Ideal) x0 x1 (ix2 p e)
      = cov (k0_pay3 (F := Ideal) x0 (ix2 p (0 : Fin 1))) (k0_pay4 (F := Ideal) x0 (ix2 p (0 : Fin 1))) (k0_pay5 (F := Ideal) x0 (ix2 p (0 : Fin 1))) (k0_pay6 (F := Ideal) x0 (ix2 p (0 : Fin 1)))
          ![k0_pay13 (F := Ideal) x1 (ix2 p (0 : Fin 1)), k0_pay14 (F := Ideal) x1 (ix2 p (0 : Fin 1)), k0_pay15 (F := Ideal) x1 (ix2 p (0 : Fin 1))]
          ⟨e.val / 3, by have := e.isLt; omega⟩ ⟨e.val % 3, Nat.mod_lt _ (by decide)⟩ := by
  unfold out0_2
  rw [View.canon_unit_zero hz2]
  simp only [View.ld_unit_zero (S := S2000x4) hz2, View.ld_unit_zero (S := S2000x3) hz2]
  refine (pay1_at _ _ _ _ _ _ _ _ _ _ _ _ _ _ _ _ p e).trans ?_
  fin_cases e <;> rfl

/-- The stored block, entry by entry: row p's nine entries of its 3 × 3 result. -/
theorem out_at (x0 : Vec Ideal S2000x4 .f32) (x1 : Vec Ideal S2000x3 .f32) (p : Fin 2000) (e : Fin 9) :
    out0_2 (F := Ideal) x0 x1 (ix2 p e) = rowCov (fun j => x0 (ix2 p j)) (fun j => x1 (ix2 p j))
      ⟨e.val / 3, by have := e.isLt; omega⟩ ⟨e.val % 3, Nat.mod_lt _ (by decide)⟩ := by
  have hW : k0_pay3 (F := Ideal) x0 (ix2 p (0 : Fin 1)) = nrm (fun j => x0 (ix2 p j)) 0 := Eq.trans (col4_at (k0_pay2 (F := Ideal) x0) p 0 slices_S2000x4_o0_0_S2000x1) (qn_at x0 p 0)
  have hX : k0_pay4 (F := Ideal) x0 (ix2 p (0 : Fin 1)) = nrm (fun j => x0 (ix2 p j)) 1 := Eq.trans (col4_at (k0_pay2 (F := Ideal) x0) p 1 slices_S2000x4_o0_1_S2000x1) (qn_at x0 p 1)
  have hY : k0_pay5 (F := Ideal) x0 (ix2 p (0 : Fin 1)) = nrm (fun j => x0 (ix2 p j)) 2 := Eq.trans (col4_at (k0_pay2 (F := Ideal) x0) p 2 slices_S2000x4_o0_2_S2000x1) (qn_at x0 p 2)
  have hZ : k0_pay6 (F := Ideal) x0 (ix2 p (0 : Fin 1)) = nrm (fun j => x0 (ix2 p j)) 3 := Eq.trans (col4_at (k0_pay2 (F := Ideal) x0) p 3 slices_S2000x4_o0_3_S2000x1) (qn_at x0 p 3)
  have hS : (![k0_pay13 (F := Ideal) x1 (ix2 p (0 : Fin 1)), k0_pay14 (F := Ideal) x1 (ix2 p (0 : Fin 1)), k0_pay15 (F := Ideal) x1 (ix2 p (0 : Fin 1))] : Fin 3 → EReal)
      = fun j => x1 (ix2 p j) := by
    funext j
    fin_cases j
    · exact col3_at x1 p 0 slices_S2000x3_o0_0_S2000x1
    · exact col3_at x1 p 1 slices_S2000x3_o0_1_S2000x1
    · exact col3_at x1 p 2 slices_S2000x3_o0_2_S2000x1
  rw [out_leaf, hW, hX, hY, hZ, hS]
  rfl

/-! ## From the blocks to the array, the reshape, and the run -/

variable (m : (ℓ : Loc nD τ sig) → Buf (Elt Ideal) ℓ) (ρ : Dev nD → PrngReg)

/-- The three index maps, decided over the grid: point t's block starts at row 2000 t on the long axis and at 0 on the short one. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Point t's block of the first input is rows 2000 t … 2000 t + 1999 of the argument. -/
theorem iblk0_at (c : Dev nD) (t : Fin cfg0.N) (p : Fin 2000) (j : Fin 4) (n : Fin 4000000) (hn : n.val = 2000 * t.val + p.val) :
    (iblk m c 0 t : Vec Ideal S2000x4 .f32) (ix2 p j) = (V m c main_arg0 : S4000000x4.Idx → EReal) (ix2 n j) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 2000 + 1 * p.val = n.val; rw [e0, hn]; omega
  | ⟨1, _⟩ => show win0_0.index t 1 * 4 + 1 * j.val = j.val; rw [e1]; omega

/-- Point t's block of the second input is the same rows of the second argument. -/
theorem iblk1_at (c : Dev nD) (t : Fin cfg0.N) (p : Fin 2000) (j : Fin 3) (n : Fin 4000000) (hn : n.val = 2000 * t.val + p.val) :
    (iblk m c 1 t : Vec Ideal S2000x3 .f32) (ix2 p j) = (V m c main_arg1 : S4000000x3.Idx → EReal) (ix2 n j) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 2000 + 1 * p.val = n.val; rw [e0, hn]; omega
  | ⟨1, _⟩ => show win0_1.index t 1 * 3 + 1 * j.val = j.val; rw [e1]; omega

/-- What point t writes back is block t of the [N, 9] array of the rows' results. -/
theorem flushed_eq (c : Dev nD) (t : Fin cfg0.N) :
    (dats m 0 c).flushed 2 t = ((cfg0.win 2).blk t).view.read (Elt Ideal) (Gflat (V m c main_arg0) (V m c main_arg1)) := by
  show (cfg0.win 2).cut (grid0.coords t) ((dats m 0 c).after 2 t) = _
  rw [after0_2]
  obtain ⟨-, -, -, -, e0, e1⟩ := idx_facts t
  have hN : cfg0.N = 2000 := N_0
  have ht : t.val < 2000 := hN ▸ t.isLt
  funext y
  obtain ⟨p, e, rfl⟩ : ∃ (p : Fin 2000) (e : Fin 9), y = ix2 p e := ⟨y 0, y 1, eq_ix2 y⟩
  have hp : p.val < 2000 := p.isLt
  rw [View.read_apply]
  show out0_2 (iblk m c 0 t) (iblk m c 1 t) (ix2 p e) = Gflat (V m c main_arg0) (V m c main_arg1) (((cfg0.win 2).blk t).view.emb (ix2 p e))
  refine (out_at (iblk m c 0 t) (iblk m c 1 t) p e).trans ?_
  let n : Fin 4000000 := ⟨2000 * t.val + p.val, by omega⟩
  have hemb : ((cfg0.win 2).blk t).view.emb (ix2 p e) = (ix2 n e : S4000000x9.Idx) := by
    funext a
    apply Fin.ext
    match a with
    | ⟨0, _⟩ => show win0_2.index t 0 * 2000 + 1 * p.val = 2000 * t.val + p.val; rw [e0]; omega
    | ⟨1, _⟩ => show win0_2.index t 1 * 9 + 1 * e.val = e.val; rw [e1]; omega
  rw [hemb]
  unfold Gflat
  have h0 : (fun j => (iblk m c 0 t : Vec Ideal S2000x4 .f32) (ix2 p j)) = fun j => (V m c main_arg0 : S4000000x4.Idx → EReal) (ix2 n j) :=
    funext fun j => iblk0_at m c t p j n rfl
  have h1 : (fun j => (iblk m c 1 t : Vec Ideal S2000x3 .f32) (ix2 p j)) = fun j => (V m c main_arg1 : S4000000x3.Idx → EReal) (ix2 n j) :=
    funext fun j => iblk1_at m c t p j n rfl
  rw [h0, h1]

/-- An index of the [N, 9] array is in point t's block iff each coordinate is in the block's range on its axis. -/
theorem mem_blk (t : Fin cfg0.N) (i : S4000000x9.Idx) :
    i ∈ ((cfg0.win 2).blk t).view.set ↔ ∀ a : Fin 2, win0_2.index t a * S2000x9.size a ≤ (i a).val ∧ (i a).val < win0_2.index t a * S2000x9.size a + S2000x9.size a := by
  show i ∈ ((View.whole main_v0).slice (win0_2.rect t)).set ↔ _
  rw [View.set_slice_whole, Rect.mem_set_unit]
  exact Iff.rfl

/-- The blocks tile the array: row r is in the block of point r / 2000. -/
theorem cover (i : S4000000x9.Idx) : ∃ t : Fin cfg0.N, (cfg0.win 2).flush t = true ∧ i ∈ ((cfg0.win 2).blk t).view.set := by
  have hN : cfg0.N = 2000 := N_0
  have hi0 : (i 0).val < 4000000 := (i 0).isLt
  have hi1 : (i 1).val < 9 := (i 1).isLt
  let t : Fin cfg0.N := ⟨(i 0).val / 2000, by rw [hN]; omega⟩
  obtain ⟨-, -, -, -, e0, e1⟩ := idx_facts t
  refine ⟨t, flush0_2 t, ?_⟩
  rw [mem_blk]
  intro a
  match a with
  | ⟨0, _⟩ => show win0_2.index t 0 * 2000 ≤ (i 0).val ∧ (i 0).val < win0_2.index t 0 * 2000 + 2000; rw [e0]; show (i 0).val / 2000 * 2000 ≤ (i 0).val ∧ (i 0).val < (i 0).val / 2000 * 2000 + 2000; omega
  | ⟨1, _⟩ => show win0_2.index t 1 * 9 ≤ (i 1).val ∧ (i 1).val < win0_2.index t 1 * 9 + 9; rw [e1]; omega

/-- The [N, 9] array after the region: every row's nine entries. -/
theorem final (c : Dev nD) : (dats m 0 c).arrAt 2 cfg0.N = Gflat (V m c main_arg0) (V m c main_arg1) :=
  (dats m 0 c).arrAt_eq_of_cover 2 (Gflat (V m c main_arg0) (V m c main_arg1)) (fun t _ => flushed_eq m c t) cover

/-- The reshape after the region lays row n's nine entries out as 3 × 3: entry (n, i, k) is entry (n, 3 i + k). -/
theorem tail_eq (c : Dev nD) :
    Pipeline.afterTail₀ cfgs (dats m) 0 (V0 m) [hostOps1] c main_v1
      = G (m ((c.tc : Thread nD τ).loc main_arg0)) (m ((c.tc : Thread nD τ).loc main_arg1)) := by
  unfold Pipeline.afterTail₀
  show StableHlo.after hostOps1 _ (Proc.devRef .tc main_v1) = _
  after_results
  funext i
  show shapeCast S4000000x3x3 (Pipeline.withArrays (cfgs 0).spec c (V0 m c) (fun w => (dats m 0 c).arrAt w (cfgs 0).N) (Proc.devRef .tc main_v0))
    shapeCasts_S4000000x9_S4000000x3x3 i = _
  have hA : Pipeline.withArrays (cfgs 0).spec c (V0 m c) (fun w => (dats m 0 c).arrAt w (cfgs 0).N) (Proc.devRef .tc main_v0)
      = Gflat (m ((c.tc : Thread nD τ).loc main_arg0)) (m ((c.tc : Thread nD τ).loc main_arg1)) :=
    (Pipeline.withArrays_arr spec0 launch0.win.arr_inj c _ _ 2).trans ((final m c).trans (by rw [V_main_arg0, V_main_arg1]))
  rw [hA]
  obtain ⟨n, a, b, rfl⟩ : ∃ (n : Fin 4000000) (a b : Fin 3), i = ix3 n a b := ⟨i 0, i 1, i 2, eq_ix3 i⟩
  have ha : a.val < 3 := a.isLt
  have hb : b.val < 3 := b.isLt
  refine (shapeCast_apply _ shapeCasts_S4000000x9_S4000000x3x3 (ix3 n a b) (ix2 n (⟨3 * a.val + b.val, by omega⟩ : Fin 9)) (by
    rw [Shape.rowMajor_val_two, Shape.rowMajor_val_three]
    show n.val * 9 + (3 * a.val + b.val) = (n.val * 3 + a.val) * 3 + b.val
    omega)).trans ?_
  unfold Gflat G
  show rowCov _ _ ⟨(3 * a.val + b.val) / 3, _⟩ ⟨(3 * a.val + b.val) % 3, _⟩ = rowCov _ _ a b
  congr 1 <;> exact Fin.ext (by first | (show (3 * a.val + b.val) / 3 = a.val; omega) | (show (3 * a.val + b.val) % 3 = b.val; omega))

/-- Every weakly fair execution of the idealized kernel ends with the result array at `G` of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v1) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelValue

end
-- ==== Proof.lean ====
/-
  The certificate's claims. The three frames are the generated ones (the reference's is its generated run with the result
  dropped); the idealization rewrote nothing, so `preserves` is trivial. The value claim: under the precondition every row of
  the quaternion input is a nonzero row of reals, so the kernel's scaling by the reciprocal square root of the sum of squares
  and the reference's division by its square root give the same unit quaternion; the nine rotation entries, the column
  scaling and the three-term contraction are then the same expressions on both sides, and both results are `QuatCov.G` of
  the inputs.
-/
import proofs.«148849_j74457553044377_1_alg».proof.Defs
import proofs.«148849_j74457553044377_1_alg».proof.Proof.Gen.Kernel
import proofs.«148849_j74457553044377_1_alg».proof.Proof.Gen.Kernel.Skeleton
import proofs.«148849_j74457553044377_1_alg».proof.Proof.Gen.Kernel.Launch
import proofs.«148849_j74457553044377_1_alg».proof.Proof.Gen.Kernel.Points
import proofs.«148849_j74457553044377_1_alg».proof.Proof.Gen.Kernel.Frame
import proofs.«148849_j74457553044377_1_alg».proof.Proof.Gen.KernelIdeal
import proofs.«148849_j74457553044377_1_alg».proof.Proof.Gen.KernelIdeal.Skeleton
import proofs.«148849_j74457553044377_1_alg».proof.Proof.Gen.KernelIdeal.Launch
import proofs.«148849_j74457553044377_1_alg».proof.Proof.Gen.KernelIdeal.Points
import proofs.«148849_j74457553044377_1_alg».proof.Proof.Gen.KernelIdeal.Frame
import proofs.«148849_j74457553044377_1_alg».proof.Proof.Gen.ReferenceIdeal
import proofs.«148849_j74457553044377_1_alg».proof.Proof.Gen.ReferenceIdeal.Run
import proofs.«148849_j74457553044377_1_alg».proof.Proof.Gen.ReferenceIdeal.Read
import proofs.«148849_j74457553044377_1_alg».proof.Proof.Gen.Pre_finite_inputs
import proofs.«148849_j74457553044377_1_alg».proof.Proof.QuatCov
import proofs.«148849_j74457553044377_1_alg».proof.Proof.PreRows
import proofs.«148849_j74457553044377_1_alg».proof.Proof.RefValue
import proofs.«148849_j74457553044377_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at `QuatCov.G` of the arguments: the kernel by its run read as values, the reference by its
    stages read at an index, on rows the precondition makes real and nonzero. -/
theorem algebraic : Cert.algebraic_KernelIdeal_ReferenceIdeal := by
  intro m ρ m' ρ' hpre hagree
  refine ⟨fun c => Cert.QuatCov.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, (hagree c).1, (hagree c).2]
  exact Cert.RefValue.ref_eq _ _ (Cert.PreRows.goodRows_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
